-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x32x32 : Shape := ⟨4, ![8, 16, 32, 32]⟩
abbrev S64x144 : Shape := ⟨2, ![64, 144]⟩
abbrev S_ : Shape := ⟨0, ![]⟩

class Facts : Prop where
  bcast_S_S8x16x32x32 : S_.BroadcastsInDim S8x16x32x32 (![] : Fin 0 → Fin S8x16x32x32.rank)
  reducesTo_S8x16x32x32_S_d0_1_2_3 : S8x16x32x32.ReducesTo [0, 1, 2, 3] S_
  h_S_ : 0 < S_.numel
  bcast_S_S64x144 : S_.BroadcastsInDim S64x144 (![] : Fin 0 → Fin S64x144.rank)
  reducesTo_S64x144_S_d0_1 : S64x144.ReducesTo [0, 1] S_

variable [Facts]

def fn {F : FTy → Type} [FloatOps F] (main_arg0 : FVec F S8x16x32x32 .f32) (main_arg1 : FVec F S64x144 .f32) : IVec S_ 1 :=
  let main_v0 : FVec F S8x16x32x32 .f32 := Host.absf main_arg0
  let main_cst : FVec F S_ .f32 := constant S_ .f32 0x7F800000#32
  let main_v1 : FVec F S8x16x32x32 .f32 := broadcastInDim S8x16x32x32 ![] bcast_S_S8x16x32x32 main_cst
  let main_v2 : IVec S8x16x32x32 1 := cmpf .olt main_v0 main_v1
  let main_c : IVec S_ 1 := constantI S_ 1 1#1
  let main_v3 : IVec S_ 1 := (fun x v => Host.reduce IntOp.andi x v reducesTo_S8x16x32x32_S_d0_1_2_3 h_S_) main_v2 main_c
  let main_v4 : FVec F S64x144 .f32 := Host.absf main_arg1
  let main_cst_0 : FVec F S_ .f32 := constant S_ .f32 0x7F800000#32
  let main_v5 : FVec F S64x144 .f32 := broadcastInDim S64x144 ![] bcast_S_S64x144 main_cst_0
  let main_v6 : IVec S64x144 1 := cmpf .olt main_v4 main_v5
  let main_c_1 : IVec S_ 1 := constantI S_ 1 1#1
  let main_v7 : IVec S_ 1 := (fun x v => Host.reduce IntOp.andi x v reducesTo_S64x144_S_d0_1 h_S_) main_v6 main_c_1
  let main_v8 : IVec S_ 1 := andi main_v3 main_v7
  main_v8
-- ==== Kernel.lean ====
abbrev S8x16x32x32 : Shape := ⟨4, ![8, 16, 32, 32]⟩
abbrev S64x144 : Shape := ⟨2, ![64, 144]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S8x64x1024 : Shape := ⟨3, ![8, 64, 1024]⟩
abbrev S1x144x128 : Shape := ⟨3, ![1, 144, 128]⟩
abbrev S1x64x128 : Shape := ⟨3, ![1, 64, 128]⟩
abbrev S144x128 : Shape := ⟨2, ![144, 128]⟩
abbrev S64x144x1 : Shape := ⟨3, ![64, 144, 1]⟩
abbrev S64x144x128 : Shape := ⟨3, ![64, 144, 128]⟩
abbrev S64x128 : Shape := ⟨2, ![64, 128]⟩
abbrev S8x64x32x32 : Shape := ⟨4, ![8, 64, 32, 32]⟩

abbrev nBuf : Space → Nat
  | .hbm => 27
  | .vmem => 5
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S_, .i32⟩
  | .hbm, ⟨3, _⟩ => ⟨S_, .f32⟩
  | .hbm, ⟨4, _⟩ => ⟨S8x16x34x34, .f32⟩
  | .hbm, ⟨5, _⟩ => ⟨S8x16x32x32, .f32⟩
  | .hbm, ⟨6, _⟩ => ⟨S8x16x32x32, .f32⟩
  | .hbm, ⟨7, _⟩ => ⟨S8x16x32x32, .f32⟩
  | .hbm, ⟨8, _⟩ => ⟨S8x16x32x32, .f32⟩
  | .hbm, ⟨9, _⟩ => ⟨S8x16x32x32, .f32⟩
  | .hbm, ⟨10, _⟩ => ⟨S8x16x32x32, .f32⟩
  | .hbm, ⟨11, _⟩ => ⟨S8x16x32x32, .f32⟩
  | .hbm, ⟨12, _⟩ => ⟨S8x16x32x32, .f32⟩
  | .hbm, ⟨13, _⟩ => ⟨S8x16x32x32, .f32⟩
  | .hbm, ⟨14, _⟩ => ⟨S8x16x1x32x32, .f32⟩
  | .hbm, ⟨15, _⟩ => ⟨S8x16x1x32x32, .f32⟩
  | .hbm, ⟨16, _⟩ => ⟨S8x16x1x32x32, .f32⟩
  | .hbm, ⟨17, _⟩ => ⟨S8x16x1x32x32, .f32⟩
  | .hbm, ⟨18, _⟩ => ⟨S8x16x1x32x32, .f32⟩
  | .hbm, ⟨19, _⟩ => ⟨S8x16x1x32x32, .f32⟩
  | .hbm, ⟨20, _⟩ => ⟨S8x16x1x32x32, .f32⟩
  | .hbm, ⟨21, _⟩ => ⟨S8x16x1x32x32, .f32⟩
  | .hbm, ⟨22, _⟩ => ⟨S8x16x1x32x32, .f32⟩
  | .hbm, ⟨23, _⟩ => ⟨S8x16x9x32x32, .f32⟩
  | .hbm, ⟨24, _⟩ => ⟨S8x144x1024, .f32⟩
  | .hbm, ⟨25, _⟩ => ⟨S8x64x1024, .f32⟩
  | .hbm, ⟨26, _⟩ => ⟨S8x64x32x32, .f32⟩
  | .local _ .vmem, ⟨0, _⟩ => ⟨S64x144, .f32⟩
  | .local _ .vmem, ⟨1, _⟩ => ⟨S1x144x128, .f32⟩
  | .local _ .vmem, ⟨2, _⟩ => ⟨S1x144x128, .f32⟩
  | .local _ .vmem, ⟨3, _⟩ => ⟨S1x64x128, .f32⟩
  | .local _ .vmem, ⟨4, _⟩ => ⟨S1x64x128, .f32⟩
  | _, _ => ⟨S8x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S64x144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x144x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  inb_S64x144_S64x144_0_0 : ∀ a, (![0, 0] : Fin 2 → Nat) a + S64x144.size a ≤ S64x144.size a
  h_S64x144 : 0 < S64x144.numel
  inb_S1x144x128_S1x144x128_0_0_0 : ∀ a, (![0, 0, 0] : Fin 3 → Nat) a + S1x144x128.size a ≤ S1x144x128.size a
  h_S1x144x128 : 0 < S1x144x128.numel
  shapeCasts_S1x144x128_S144x128 : S1x144x128.ShapeCasts S144x128
  shapeCasts_S144x128_S1x144x128 : S144x128.ShapeCasts S1x144x128
  shapeCasts_S64x144_S64x144x1 : S64x144.ShapeCasts S64x144x1
  broadcasts_S1x144x128_S64x144x128 : S1x144x128.Broadcasts S64x144x128
  broadcasts_S64x144x1_S64x144x128 : S64x144x1.Broadcasts S64x144x128
  reduces_S64x144x128_S64x128 : S64x144x128.Reduces [1] S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  shapeCasts_S8x64x1024_S8x64x32x32 : S8x64x1024.ShapeCasts S8x64x32x32
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x144.size a ≤ S64x144.size a
  hwx0_0 : ∀ i : grid0.Coords, EltTy.bits .f32 = 32 ∨ (Rect.block (s := S64x144) S64x144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x144x128.size a ≤ S8x144x1024.size a
  hwx0_1 : ∀ i : grid0.Coords, EltTy.bits .f32 = 32 ∨ (Rect.block (s := S8x144x1024) S1x144x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S8x64x1024.size a
  hwx0_2 : ∀ i : grid0.Coords, EltTy.bits .f32 = 32 ∨ (Rect.block (s := S8x64x1024) S1x64x128.size (cc0_transform_2 i) (hinb0_2 i)).WholeWords (EltTy.packing .f32)

variable [Facts₀]

abbrev win0_0 : Pipeline.Window sig grid0 :=
  Pipeline.Window.ofSpec (Memref.whole main_arg1) S64x144.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x144x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x32x32 : Shape := ⟨4, ![8, 16, 32, 32]⟩
abbrev S64x144 : Shape := ⟨2, ![64, 144]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S8x1x144x1024 : Shape := ⟨4, ![8, 1, 144, 1024]⟩
abbrev S1x64x144x1 : Shape := ⟨4, ![1, 64, 144, 1]⟩
abbrev S8x64x144x1024 : Shape := ⟨4, ![8, 64, 144, 1024]⟩
abbrev S8x64x1024 : Shape := ⟨3, ![8, 64, 1024]⟩
abbrev S8x64x32x32 : Shape := ⟨4, ![8, 64, 32, 32]⟩

abbrev nBuf : Space → Nat
  | .hbm => 65
  | .vmem => 0
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S_, .i32⟩
  | .hbm, ⟨3, _⟩ => ⟨S_, .f32⟩
  | .hbm, ⟨4, _⟩ => ⟨S8x16x34x34, .f32⟩
  | .hbm, ⟨5, _⟩ => ⟨S8x16x32x32, .f32⟩
  | .hbm, ⟨6, _⟩ => ⟨S8x16x32x32, .f32⟩
  | .hbm, ⟨7, _⟩ => ⟨S8x16x32x32, .f32⟩
  | .hbm, ⟨8, _⟩ => ⟨S8x16x32x32, .f32⟩
  | .hbm, ⟨9, _⟩ => ⟨S8x16x32x32, .f32⟩
  | .hbm, ⟨10, _⟩ => ⟨S8x16x32x32, .f32⟩
  | .hbm, ⟨11, _⟩ => ⟨S8x16x32x32, .f32⟩
  | .hbm, ⟨12, _⟩ => ⟨S8x16x32x32, .f32⟩
  | .hbm, ⟨13, _⟩ => ⟨S8x16x32x32, .f32⟩
  | .hbm, ⟨14, _⟩ => ⟨S8x16x1x32x32, .f32⟩
  | .hbm, ⟨15, _⟩ => ⟨S8x16x1x32x32, .f32⟩
  | .hbm, ⟨16, _⟩ => ⟨S8x16x1x32x32, .f32⟩
  | .hbm, ⟨17, _⟩ => ⟨S8x16x1x32x32, .f32⟩
  | .hbm, ⟨18, _⟩ => ⟨S8x16x1x32x32, .f32⟩
  | .hbm, ⟨19, _⟩ => ⟨S8x16x1x32x32, .f32⟩
  | .hbm, ⟨20, _⟩ => ⟨S8x16x1x32x32, .f32⟩
  | .hbm, ⟨21, _⟩ => ⟨S8x16x1x32x32, .f32⟩
  | .hbm, ⟨22, _⟩ => ⟨S8x16x1x32x32, .f32⟩
  | .hbm, ⟨23, _⟩ => ⟨S8x16x9x32x32, .f32⟩
  | .hbm, ⟨24, _⟩ => ⟨S8x144x1024, .f32⟩
  | .hbm, ⟨25, _⟩ => ⟨S8x1x144x1024, .f32⟩
  | .hbm, ⟨26, _⟩ => ⟨S1x64x144x1, .f32⟩
  | .hbm, ⟨27, _⟩ => ⟨S8x64x144x1024, .f32⟩
  | .hbm, ⟨28, _⟩ => ⟨S8x64x144x1024, .f32⟩
  | .hbm, ⟨29, _⟩ => ⟨S8x64x144x1024, .f32⟩
  | .hbm, ⟨30, _⟩ => ⟨S_, .f32⟩
  | .hbm, ⟨31, _⟩ => ⟨S8x64x144x1024, .f32⟩
  | .hbm, ⟨32, _⟩ => ⟨S8x64x144x1024, .f32⟩
  | .hbm, ⟨33, _⟩ => ⟨S_, .f32⟩
  | .hbm, ⟨34, _⟩ => ⟨S8x64x144x1024, .f32⟩
  | .hbm, ⟨35, _⟩ => ⟨S8x64x144x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x64x144x1024, .f32⟩
  | .hbm, ⟨40, _⟩ => ⟨S8x64x144x1024, .f32⟩
  | .hbm, ⟨41, _⟩ => ⟨S_, .f32⟩
  | .hbm, ⟨42, _⟩ => ⟨S8x64x144x1024, .f32⟩
  | .hbm, ⟨43, _⟩ => ⟨S8x64x144x1024, .f32⟩
  | .hbm, ⟨44, _⟩ => ⟨S8x64x144x1024, .f32⟩
  | .hbm, ⟨45, _⟩ => ⟨S8x64x144x1024, .f32⟩
  | .hbm, ⟨46, _⟩ => ⟨S8x64x144x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8x64x144x1024, .f32⟩
  | .hbm, ⟨51, _⟩ => ⟨S8x64x144x1024, .f32⟩
  | .hbm, ⟨52, _⟩ => ⟨S_, .f32⟩
  | .hbm, ⟨53, _⟩ => ⟨S8x64x144x1024, .f32⟩
  | .hbm, ⟨54, _⟩ => ⟨S8x64x144x1024, .f32⟩
  | .hbm, ⟨55, _⟩ => ⟨S8x64x144x1024, .f32⟩
  | .hbm, ⟨56, _⟩ => ⟨S8x64x144x1024, .f32⟩
  | .hbm, ⟨57, _⟩ => ⟨S8x64x144x1024, .f32⟩
  | .hbm, ⟨58, _⟩ => ⟨S8x64x144x1024, .f32⟩
  | .hbm, ⟨59, _⟩ => ⟨S_, .f32⟩
  | .hbm, ⟨60, _⟩ => ⟨S8x64x144x1024, .f32⟩
  | .hbm, ⟨61, _⟩ => ⟨S8x64x144x1024, .f32⟩
  | .hbm, ⟨62, _⟩ => ⟨S_, .f32⟩
  | .hbm, ⟨63, _⟩ => ⟨S8x64x1024, .f32⟩
  | .hbm, ⟨64, _⟩ => ⟨S8x64x32x32, .f32⟩
  | _, _ => ⟨S8x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_cst_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  bcast_S8x144x1024_S8x1x144x1024_0_2_3 : S8x144x1024.BroadcastsInDim S8x1x144x1024 (![0, 2, 3] : Fin 3 → Fin S8x1x144x1024.rank)
  bcast_S64x144_S1x64x144x1_1_2 : S64x144.BroadcastsInDim S1x64x144x1 (![1, 2] : Fin 2 → Fin S1x64x144x1.rank)
  bcast_S8x1x144x1024_S8x64x144x1024_0_1_2_3 : S8x1x144x1024.BroadcastsInDim S8x64x144x1024 (![0, 1, 2, 3] : Fin 4 → Fin S8x64x144x1024.rank)
  bcast_S1x64x144x1_S8x64x144x1024_0_1_2_3 : S1x64x144x1.BroadcastsInDim S8x64x144x1024 (![0, 1, 2, 3] : Fin 4 → Fin S8x64x144x1024.rank)
  bcast_S_S8x64x144x1024 : S_.BroadcastsInDim S8x64x144x1024 (![] : Fin 0 → Fin S8x64x144x1024.rank)
  reducesTo_S8x64x144x1024_S8x64x1024_d2 : S8x64x144x1024.ReducesTo [2] S8x64x1024
  shapeCasts_S8x64x1024_S8x64x32x32 : S8x64x1024.ShapeCasts S8x64x32x32

variable [Facts₀]

class Facts : Prop extends Facts₀ where

variable [Facts]
-- ==== Proof.RegionBits.lean ====
/-
  The kernel's program as printed, run to its end.

  @main is: host lines that build the patch matrix (the input padded by one on each side of its two image axes, nine
  shifted 32 × 32 slices of it stacked along a new axis of extent 9, the stack flattened to [8, 144, 1024]: row
  k = (channel, row offset, column offset), column l = (pixel row, pixel column)); ONE pipelined region over the 8 × 8 grid
  (image b, column block j) whose body reads the whole threshold matrix [64, 144] and the [144, 128] block of patches and
  writes the [64, 128] block of currents; and a closing reshape of [8, 64, 1024] to [8, 64, 32, 32].

  Here: the buffers' contents when the region is entered (`V`), what the body leaves in the output block as a function of
  the two input blocks (`outBlock`), the body's triple, the pipeline's proof data, and the run of @main to the post that
  names every array: the arguments as launched, the region's output array at what the library assembles from the blocks
  written back, and every later buffer as the closing line computes it.
-/
import proofs.«104473_j27144193310998_1_alg».proof.Proof.Gen.Kernel.Launch
import proofs.«104473_j27144193310998_1_alg».proof.Proof.Gen.Kernel.Skeleton
import proofs.«104473_j27144193310998_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before the region
    (the integer zero, its conversion and the padding, then the slices, the stack and its flattening). -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host lines, the region, and the closing reshape: it reduces to the region entered at
    `V` and continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The closing reshape touches only the region's output array and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the image argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor the threshold argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The closing reshape does not write the image argument, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The threshold window's staging buffer holds the whole threshold matrix at every point: fetched at the first point of
    each image only, and its block index never moves. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The patch window's staging buffer holds its block at every point (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rTheta : Rect S64x144 := Rect.unit (s := S64x144) ![0, 0] S64x144.size inb_S64x144_S64x144_0_0
abbrev rPatch : Rect S1x144x128 := Rect.unit (s := S1x144x128) ![0, 0, 0] S1x144x128.size inb_S1x144x128_S1x144x128_0_0_0
abbrev rOut : Rect S1x64x128 := Rect.unit (s := S1x64x128) ![0, 0, 0] S1x64x128.size inb_S1x64x128_S1x64x128_0_0_0

/-- The output block after the body, from the threshold block `x0` and the patch block `x1`: its one store, of the
    whole block, of the body's arithmetic on the two loaded blocks. -/
def outBlock (x0 : Vec F S64x144 .f32) (x1 : Vec F S1x144x128 .f32) : Vec F S1x64x128 .f32 :=
  View.canon [⟨rOut, k0_pay1 (View.ld x0 rTheta) (View.ld x1 rPatch)⟩]

/-- That store covers the block. -/
theorem outCover (p0 : Vec F S1x64x128 .f32) (y : S1x64x128.Idx) :
    ∃ pc ∈ ([⟨rOut, p0⟩] : List (View.Piece (Elt F) S1x64x128 .f32)), y ∈ pc.1.set :=
  View.cover_of_tiled [⟨rOut, p0⟩] S1x64x128.size (by rfl) y

/-! ## The body's triple -/

set_option maxHeartbeats 1000000 in
/-- The body on whole staging memrefs — the two inputs' at contents `x0`, `x1`, the output's at anything — runs to the
    continuation holding the inputs' as they were and the output's at `outBlock x0 x1`. (It also loads the output block
    before storing it; the loaded value is used by nothing.) -/
theorem sound_kernel (c : Dev nD) (E : Set ℕ) (i : grid0.Coords) (arg2 : Memref sig .tc .vmem S64x144 .f32) (harg2 : arg2.IsWhole)
    (arg3 : Memref sig .tc .vmem S1x144x128 .f32) (harg3 : arg3.IsWhole) (arg4 : Memref sig .tc .vmem S1x64x128 .f32) (harg4 : arg4.IsWhole)
    (x0 : Vec F S64x144 .f32) (x1 : Vec F S1x144x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__ekv_kernel i arg2 harg2 arg3 harg3 arg4 harg4) K := by
  simp only [cc0__ekv_kernel_eq_skeleton]; unfold cc0__ekv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The pipeline's proof data -/

/-- The proof data of the pipeline on core `c`: the arrays as the region finds them; after the body at point `t` each
    input's buffer at its block and the output's at `outBlock` of the two input blocks; the invariant holds only what the
    body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, nothing faulting, and at the end
    every array of the pipeline holds what the library assembles from the proof data and every other unscoped buffer what
    the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- After the run the image argument is as launched: no window stages it and the closing line does not write it. -/
theorem kept_main_arg0 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)

/-- After the run the threshold argument is as launched: its window stages it and never writes it back. -/
theorem kept_main_arg1 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- The frame: every weakly fair execution of @main terminates, nothing faulting, with both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_main_arg0 m r h c, kept_main_arg1 m r h c⟩) (run_main m ρ)

end Cert.Kernel.Region

end
-- ==== Proof.RegionIdeal.lean ====
/-
  The idealized kernel's program, run to its end.

  @main is: host lines that build the patch matrix (the input padded by one on each side of its two image axes, nine
  shifted 32 × 32 slices of it stacked along a new axis of extent 9, the stack flattened to [8, 144, 1024]: row
  k = (channel, row offset, column offset), column l = (pixel row, pixel column)); ONE pipelined region over the 8 × 8 grid
  (image b, column block j) whose body reads the whole threshold matrix [64, 144] and the [144, 128] block of patches and
  writes the [64, 128] block of currents; and a closing reshape of [8, 64, 1024] to [8, 64, 32, 32].

  Here: the buffers' contents when the region is entered (`V`), what the body leaves in the output block as a function of
  the two input blocks (`outBlock`), the body's triple, the pipeline's proof data, and the run of @main to the post that
  names every array: the arguments as launched, the region's output array at what the library assembles from the blocks
  written back, and every later buffer as the closing line computes it.
-/
import proofs.«104473_j27144193310998_1_alg».proof.Proof.Gen.KernelIdeal.Launch
import proofs.«104473_j27144193310998_1_alg».proof.Proof.Gen.KernelIdeal.Skeleton
import proofs.«104473_j27144193310998_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before the region
    (the integer zero, its conversion and the padding, then the slices, the stack and its flattening). -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host lines, the region, and the closing reshape: it reduces to the region entered at
    `V` and continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The closing reshape touches only the region's output array and its own result. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the image argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor the threshold argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The closing reshape does not write the image argument, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The threshold window's staging buffer holds the whole threshold matrix at every point: fetched at the first point of
    each image only, and its block index never moves. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The patch window's staging buffer holds its block at every point (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rTheta : Rect S64x144 := Rect.unit (s := S64x144) ![0, 0] S64x144.size inb_S64x144_S64x144_0_0
abbrev rPatch : Rect S1x144x128 := Rect.unit (s := S1x144x128) ![0, 0, 0] S1x144x128.size inb_S1x144x128_S1x144x128_0_0_0
abbrev rOut : Rect S1x64x128 := Rect.unit (s := S1x64x128) ![0, 0, 0] S1x64x128.size inb_S1x64x128_S1x64x128_0_0_0

/-- The output block after the body, from the threshold block `x0` and the patch block `x1`: its one store, of the
    whole block, of the body's arithmetic on the two loaded blocks. -/
def outBlock (x0 : Vec F S64x144 .f32) (x1 : Vec F S1x144x128 .f32) : Vec F S1x64x128 .f32 :=
  View.canon [⟨rOut, k0_pay1 (View.ld x0 rTheta) (View.ld x1 rPatch)⟩]

/-- That store covers the block. -/
theorem outCover (p0 : Vec F S1x64x128 .f32) (y : S1x64x128.Idx) :
    ∃ pc ∈ ([⟨rOut, p0⟩] : List (View.Piece (Elt F) S1x64x128 .f32)), y ∈ pc.1.set :=
  View.cover_of_tiled [⟨rOut, p0⟩] S1x64x128.size (by rfl) y

/-! ## The body's triple -/

set_option maxHeartbeats 1000000 in
/-- The body on whole staging memrefs — the two inputs' at contents `x0`, `x1`, the output's at anything — runs to the
    continuation holding the inputs' as they were and the output's at `outBlock x0 x1`. (It also loads the output block
    before storing it; the loaded value is used by nothing.) -/
theorem sound_kernel (c : Dev nD) (E : Set ℕ) (i : grid0.Coords) (arg2 : Memref sig .tc .vmem S64x144 .f32) (harg2 : arg2.IsWhole)
    (arg3 : Memref sig .tc .vmem S1x144x128 .f32) (harg3 : arg3.IsWhole) (arg4 : Memref sig .tc .vmem S1x64x128 .f32) (harg4 : arg4.IsWhole)
    (x0 : Vec F S64x144 .f32) (x1 : Vec F S1x144x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__ekv_kernel i arg2 harg2 arg3 harg3 arg4 harg4) K := by
  simp only [cc0__ekv_kernel_eq_skeleton]; unfold cc0__ekv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The pipeline's proof data -/

/-- The proof data of the pipeline on core `c`: the arrays as the region finds them; after the body at point `t` each
    input's buffer at its block and the output's at `outBlock` of the two input blocks; the invariant holds only what the
    body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, nothing faulting, and at the end
    every array of the pipeline holds what the library assembles from the proof data and every other unscoped buffer what
    the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- After the run the image argument is as launched: no window stages it and the closing line does not write it. -/
theorem kept_main_arg0 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)

/-- After the run the threshold argument is as launched: its window stages it and never writes it back. -/
theorem kept_main_arg1 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- The frame: every weakly fair execution of @main terminates, nothing faulting, with both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_main_arg0 m r h c, kept_main_arg1 m r h c⟩) (run_main m ρ)

end Cert.KernelIdeal.Region

end
-- ==== Proof.LibDiodeCurrent.lean ====
/-
  The current of an array of diodes, as plain functions on the extended reals, and the one law that joins its two
  arrangements.

  One cell, gate value `p` against threshold `t`: with a = (p - t)·c₁ and a' = a - c₂ the cell passes
  sp(a)² - sp(a')², where sp(v) = log(1 + e^clip(v)) and clip cuts v to [-30, 30]; c₁, c₂ and the two bounds are the
  binary32 numbers the programs spell (their words are kept: the same word on both sides is never evaluated).
  A whole output entry (image b, unit o, pixel l) is α times the sum over the 144 patch rows k of the cell at
  (patch b k l, threshold o k).

  The two programs differ in where the factor α stands: outside the sum over k, or on every term. α is a non-negative
  real, and a non-negative real factor distributes over any finite sum of extended reals, whatever infinities the terms
  are (`scale_sum`): no finiteness of the terms is needed.
-/
import Idealize.ShloMosaic.PureOps.Ideal
import Idealize.ShloMosaic.Lib.ValueIdx
import Mathlib.Data.EReal.Operations

noncomputable section

namespace Cert.Diode

open Idealize.ShloMosaic Idealize.ShloMosaic.ValueIdx

/-- The soft step of the clipped argument: log(1 + e^v') with v' = min(30, max(-30, v)). -/
def softClip (v : EReal) : EReal :=
  Ideal.log1p (Ideal.exp (min (Ideal.ofBits .f32 0x41F00000#32) (max (Ideal.ofBits .f32 0xC1F00000#32) v)))

/-- The scaled overdrive (p - t)·c₁. -/
def drive (p t : EReal) : EReal := (p - t) * Ideal.ofBits .f32 0x41CD20D2#32

/-- One cell's current before the common factor: sp(a)² - sp(a - c₂)². -/
def cell (p t : EReal) : EReal :=
  softClip (drive p t) * softClip (drive p t)
    - softClip (drive p t - Ideal.ofBits .f32 0x40241A42#32) * softClip (drive p t - Ideal.ofBits .f32 0x40241A42#32)

/-- The common factor α (the binary32 number nearest 0.0005625). -/
def alpha : EReal := Ideal.ofBits .f32 0x3A1374BC#32

/-- α is the real 9663676 / 2³⁴. -/
theorem alpha_eq : alpha = ((9663676 / 17179869184 : ℝ) : EReal) := by
  unfold alpha
  simp [Ideal.ofBits, Ideal.ieee, -EReal.coe_mul]; norm_num

theorem alpha_nonneg : 0 ≤ alpha := by
  rw [alpha_eq]; exact EReal.coe_nonneg.mpr (by norm_num)

theorem alpha_ne_top : alpha ≠ ⊤ := by
  rw [alpha_eq]; exact EReal.coe_ne_top _

/-- A non-negative real factor goes inside a finite sum of extended reals. -/
theorem scale_sum {ι : Type} (s : Finset ι) (f : ι → EReal) : alpha * ∑ k ∈ s, f k = ∑ k ∈ s, alpha * f k := by
  classical
  induction s using Finset.induction_on with
  | empty => simp
  | insert a s ha ih =>
    rw [Finset.sum_insert ha, Finset.sum_insert ha, EReal.left_distrib_of_nonneg_of_ne_top alpha_nonneg alpha_ne_top, ih]

/-- The patch matrix, the threshold matrix and the current array. -/
abbrev SPatches : Shape := ⟨3, ![8, 144, 1024]⟩
abbrev SThresh : Shape := ⟨2, ![64, 144]⟩
abbrev SCurrent : Shape := ⟨3, ![8, 64, 1024]⟩

/-- The current at image `b`, unit `o`, pixel `l`: α times the sum of the 144 cells of that unit at that pixel. -/
def currentAt (P : SPatches.Idx → EReal) (θ : SThresh.Idx → EReal) (b : Fin 8) (o : Fin 64) (l : Fin 1024) : EReal :=
  alpha * ∑ k : Fin 144, cell (P (ix3 b k l)) (θ (ix2 o k))

/-- The whole current array. -/
def current (P : SPatches.Idx → EReal) (θ : SThresh.Idx → EReal) : SCurrent.Idx → EReal :=
  fun i => currentAt P θ ⟨(i 0).val, (i 0).isLt⟩ ⟨(i 1).val, (i 1).isLt⟩ ⟨(i 2).val, (i 2).isLt⟩

end Cert.Diode

end
-- ==== Proof.BodyEntry.lean ====
/-
  The idealized body's arithmetic at one entry of its output block.

  The body holds the whole threshold matrix θ [64, 144] and one block of patches p [1, 144, 128]. It lays the patches
  along a new leading axis of extent 64 and the thresholds along a new trailing axis of extent 128, forms the cell current
  at every (o, k, l), sums over the middle axis k, and scales by α. So the entry (0, o, l) of what it stores is
  α · Σ_k cell (p (0, k, l)) (θ (o, k)).
-/
import proofs.«104473_j27144193310998_1_alg».proof.Proof.Gen.KernelIdeal.Skeleton
import proofs.«104473_j27144193310998_1_alg».proof.Proof.LibDiodeCurrent
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-- The patch block laid along the 64 units reads, at (o, k, l), the block's entry (0, k, l): the two casts that drop and
    restore the leading unit axis cancel, and the broadcast ignores the new coordinate. -/
theorem patchLane (x1 : FVec Ideal S1x144x128 .f32) (o : Fin 64) (k : Fin 144) (l : Fin 128) :
    broadcastTo S64x144x128 (shapeCast S1x144x128 (shapeCast S144x128 x1 shapeCasts_S1x144x128_S144x128) shapeCasts_S144x128_S1x144x128)
      broadcasts_S1x144x128_S64x144x128 (ix3 o k l) = x1 (ix3 (0 : Fin 1) k l) := by
  rw [shapeCast_shapeCast]
  exact broadcastTo_apply x1 broadcasts_S1x144x128_S64x144x128 (ix3 o k l) (ix3 (0 : Fin 1) k l) (fun a => match a with
    | ⟨0, _⟩ => by show (0 : Nat) = if (1 : Nat) = 1 then 0 else o.val; rw [if_pos rfl]
    | ⟨1, _⟩ => by show k.val = if (144 : Nat) = 1 then 0 else k.val; rw [if_neg (by decide)]
    | ⟨2, _⟩ => by show l.val = if (128 : Nat) = 1 then 0 else l.val; rw [if_neg (by decide)])

/-- The threshold matrix laid along the 128 lanes reads, at (o, k, l), its entry (o, k). -/
theorem threshLane (x0 : FVec Ideal S64x144 .f32) (o : Fin 64) (k : Fin 144) (l : Fin 128) :
    broadcastTo S64x144x128 (shapeCast S64x144x1 x0 shapeCasts_S64x144_S64x144x1) broadcasts_S64x144x1_S64x144x128 (ix3 o k l)
      = x0 (ix2 o k) := by
  refine (broadcastTo_apply _ broadcasts_S64x144x1_S64x144x128 (ix3 o k l) (ix3 o k (0 : Fin 1)) (fun a => match a with
    | ⟨0, _⟩ => by show o.val = if (64 : Nat) = 1 then 0 else o.val; rw [if_neg (by decide)]
    | ⟨1, _⟩ => by show k.val = if (144 : Nat) = 1 then 0 else k.val; rw [if_neg (by decide)]
    | ⟨2, _⟩ => by show (0 : Nat) = if (1 : Nat) = 1 then 0 else l.val; rw [if_pos rfl])).trans ?_
  exact shapeCast_apply x0 shapeCasts_S64x144_S64x144x1 (ix3 o k (0 : Fin 1)) (ix2 o k)
    (by rw [Shape.rowMajor_val_two, Shape.rowMajor_val_three]; show o.val * 144 + k.val = (o.val * 144 + k.val) * 1 + 0; omega)

/-- The index the sum over the middle axis reads at (o, l) with coordinate k inserted is (o, k, l). -/
theorem lift_eq (h : S64x144x128.Reduces [1] S64x128) (o : Fin 64) (l : Fin 128) (k : Fin 144) :
    h.lift (ix2 o l) k = ix3 o k l :=
  funext fun c => Fin.ext (by match c with | ⟨0, _⟩ => rfl | ⟨1, _⟩ => rfl | ⟨2, _⟩ => rfl)

/-- What the body stores, at (0, o, l): α times the sum over k of the cell at (patch (0, k, l), threshold (o, k)). -/
theorem pay_apply (x0 : FVec Ideal S64x144 .f32) (x1 : FVec Ideal S1x144x128 .f32) (o : Fin 64) (l : Fin 128) :
    k0_pay1 (F := Ideal) x0 x1 (ix3 (0 : Fin 1) o l)
      = Diode.alpha * ∑ k : Fin 144, Diode.cell (x1 (ix3 (0 : Fin 1) k l)) (x0 (ix2 o k)) := by
  unfold k0_pay1
  dsimp only
  refine (shapeCast_apply _ shapeCasts_S64x128_S1x64x128 (ix3 (0 : Fin 1) o l) (ix2 o l)
    (by rw [Shape.rowMajor_val_two, Shape.rowMajor_val_three]; show o.val * 128 + l.val = ((0 : Nat) * 64 + o.val) * 128 + l.val; omega)).trans ?_
  refine congrArg (Diode.alpha * ·) ?_
  refine (Ideal.multiReduction_add_single _ 0x00000000#32 reduces_S64x144x128_S64x128 (.inl rfl) rfl (ix2 o l)).trans ?_
  refine Finset.sum_congr rfl fun (k : Fin 144) _ => ?_
  refine (congrArg _ (lift_eq reduces_S64x144x128_S64x128 o l k)).trans ?_
  show Diode.cell (broadcastTo S64x144x128 (shapeCast S1x144x128 (shapeCast S144x128 x1 shapeCasts_S1x144x128_S144x128) shapeCasts_S144x128_S1x144x128)
      broadcasts_S1x144x128_S64x144x128 (ix3 o k l))
    (broadcastTo S64x144x128 (shapeCast S64x144x1 x0 shapeCasts_S64x144_S64x144x1) broadcasts_S64x144x1_S64x144x128 (ix3 o k l)) = _
  exact congrArg₂ Diode.cell (patchLane x1 o k l) (threshLane x0 o k l)

end Cert.KernelIdeal.Body

end
-- ==== Proof.CurrentArray.lean ====
/-
  The idealized kernel's result as one function of its two arguments.

  The region's grid point (b, j) reads the whole threshold matrix, rows 0–143 and columns 128j … 128j+127 of image b's patch
  matrix, and writes units 0–63 at the same columns of image b's current matrix: by the body's arithmetic at one entry, what
  it writes back is that block of `Diode.current patches thresholds`. The 64 blocks tile [8, 64, 1024] (the point covering
  (b, o, l) is (b, l / 128)), so after the region the whole array is `Diode.current` of the patch matrix and the thresholds,
  and @main's result is its reshape to [8, 64, 32, 32]. The patch matrix itself is the host prefix's function of the
  image argument, carried as one term (`patchesOf`) and never opened here.
-/
import proofs.«104473_j27144193310998_1_alg».proof.Proof.RegionIdeal
import proofs.«104473_j27144193310998_1_alg».proof.Proof.BodyEntry
import proofs.«104473_j27144193310998_1_alg».proof.Proof.LibDiodeCurrent
import Idealize.ShloMosaic.Lib.Pipeline.Value
import Idealize.ShloMosaic.Lib.ValueIdx
import Idealize.ShloMosaic.Lib.StableHlo.Run

set_option maxRecDepth 16384

noncomputable section

namespace Cert.KernelIdeal.Current

open Cert.KernelIdeal Cert.KernelIdeal.Gen Cert.KernelIdeal.Region
open Idealize.ShloMosaic Idealize.ShloMosaic.TcCoe Idealize.SL.Sem Idealize.ShloMosaic.ValueIdx
open Idealize.ShloMosaic.Pipeline (Dat)

/-! ## The patch matrix as a function of the image -/

section Patches
variable {F : FTy → Type} [FloatOps F]

/-- The image with a border of zeros one pixel wide on its two image axes. -/
def padded (x : FVec F S8x16x32x32 .f32) : FVec F S8x16x34x34 .f32 :=
  pad S8x16x34x34 ![0, 0, 1, 1] ![0, 0, 1, 1] ![0, 0, 0, 0] x (sitofp .f32 (constantI S_ 32 0#32)) pads_S8x16x32x32_S8x16x34x34_000_000_110_110 h_S_

/-- The 32 × 32 window of the padded image at offset `off`, with a unit axis inserted for the stack. -/
def shifted (x : FVec F S8x16x32x32 .f32) (off : Fin 4 → Nat) (h : S8x16x34x34.Slices off S8x16x32x32) : FVec F S8x16x1x32x32 .f32 :=
  broadcastInDim S8x16x1x32x32 ![0, 1, 3, 4] bcast_S8x16x32x32_S8x16x1x32x32_0_1_3_4 (extractStridedSlice S8x16x32x32 off (padded x) h)

/-- The patch matrix: the nine shifted windows stacked along the new axis and flattened to [8, 144, 1024]. -/
def patchesOf (x : FVec F S8x16x32x32 .f32) : FVec F S8x144x1024 .f32 :=
  shapeCast S8x144x1024 (concatenate S8x16x9x32x32 2
    [ ⟨S8x16x1x32x32, shifted x ![0, 0, 0, 0] slices_S8x16x34x34_S8x16x32x32_0_0_0_0⟩,
      ⟨S8x16x1x32x32, shifted x ![0, 0, 0, 1] slices_S8x16x34x34_S8x16x32x32_0_0_0_1⟩,
      ⟨S8x16x1x32x32, shifted x ![0, 0, 0, 2] slices_S8x16x34x34_S8x16x32x32_0_0_0_2⟩,
      ⟨S8x16x1x32x32, shifted x ![0, 0, 1, 0] slices_S8x16x34x34_S8x16x32x32_0_0_1_0⟩,
      ⟨S8x16x1x32x32, shifted x ![0, 0, 1, 1] slices_S8x16x34x34_S8x16x32x32_0_0_1_1⟩,
      ⟨S8x16x1x32x32, shifted x ![0, 0, 1, 2] slices_S8x16x34x34_S8x16x32x32_0_0_1_2⟩,
      ⟨S8x16x1x32x32, shifted x ![0, 0, 2, 0] slices_S8x16x34x34_S8x16x32x32_0_0_2_0⟩,
      ⟨S8x16x1x32x32, shifted x ![0, 0, 2, 1] slices_S8x16x34x34_S8x16x32x32_0_0_2_1⟩,
      ⟨S8x16x1x32x32, shifted x ![0, 0, 2, 2] slices_S8x16x34x34_S8x16x32x32_0_0_2_2⟩ ]
    concatenates_S8x16x1x32x32_S8x16x1x32x32_S8x16x1x32x32_S8x16x1x32x32_S8x16x1x32x32_S8x16x1x32x32_S8x16x1x32x32_S8x16x1x32x32_S8x16x1x32x32_S8x16x9x32x32_d2) shapeCasts_S8x16x9x32x32_S8x144x1024

end Patches

variable (m : (ℓ : Loc nD τ sig) → Buf (Elt Ideal) ℓ) (ρ : Dev nD → PrngReg)

/-- When the region is entered the patch window's array holds the patch matrix of the image argument. -/
theorem V_patches (c : Dev nD) :
    (V m c main_v20 : S8x144x1024.Idx → EReal) = patchesOf (F := Ideal) (m ((c : Thread nD τ).loc main_arg0)) := by
  dsimp only [V, V0]
  simp only [hostOps0, hostOps0_1, hostOps0_2, List.flatten_cons, List.flatten_nil, List.append_nil, List.cons_append, List.nil_append]
  after_results
  rfl

/-! ## The arrays and blocks at their literal types -/

abbrev threshArr (c : Dev nD) : FVec Ideal S64x144 .f32 := V m c main_arg1
abbrev patchArr (c : Dev nD) : FVec Ideal S8x144x1024 .f32 := V m c main_v20
abbrev threshBlk (c : Dev nD) (t : Fin cfg0.N) : FVec Ideal S64x144 .f32 := iblk m c 0 t
abbrev patchBlk (c : Dev nD) (t : Fin cfg0.N) : FVec Ideal S1x144x128 .f32 := iblk m c 1 t

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 64 grid points: the threshold window stays at block (0, 0); the patch window is at the
    output window's image and column block, on row block 0; the output window is on unit block 0, its image and column
    block each at most 7. -/
theorem idx_facts : ∀ t : Fin cfg0.N,
    win0_0.index t (0 : Fin 2) = 0 ∧ win0_0.index t (1 : Fin 2) = 0
    ∧ win0_1.index t (0 : Fin 3) = win0_2.index t (0 : Fin 3) ∧ win0_1.index t (1 : Fin 3) = 0
    ∧ win0_1.index t (2 : Fin 3) = win0_2.index t (2 : Fin 3)
    ∧ win0_2.index t (1 : Fin 3) = 0 ∧ win0_2.index t (0 : Fin 3) ≤ 7 ∧ win0_2.index t (2 : Fin 3) ≤ 7 :=
  (by decide +kernel : ∀ t : Fin grid0.N, _)

/-- Every (image, column block) pair is some grid point's output block. -/
theorem idx_onto : ∀ (q0 : Fin 8) (q2 : Fin 8), ∃ t : Fin cfg0.N, win0_2.index t = ![q0.val, 0, q2.val] :=
  (by decide +kernel : ∀ (q0 : Fin 8) (q2 : Fin 8), ∃ t : Fin grid0.N, win0_2.index t = ![q0.val, 0, q2.val])

/-! ## What a grid point writes back -/

/-- Point `t` writes back block `t` of the current array of the patch matrix and the thresholds as the region finds them. -/
theorem flushed_eq (c : Dev nD) (t : Fin cfg0.N) :
    (dats m 0 c).flushed 2 t = ((cfg0.win 2).blk t).view.read (Elt Ideal) (Diode.current (patchArr m c) (threshArr m c)) := by
  show (cfg0.win 2).cut (grid0.coords t) ((dats m 0 c).after 2 t) = _
  rw [after0_2]
  unfold outBlock
  rw [View.canon_unit_zero hz3]
  simp only [View.ld_unit_zero (S := S64x144) hz2, View.ld_unit_zero (S := S1x144x128) hz3]
  show (k0_pay1 (F := Ideal) (threshBlk m c t) (patchBlk m c t) : S1x64x128.Idx → EReal)
    = fun j : S1x64x128.Idx => Diode.current (patchArr m c) (threshArr m c) (((cfg0.win 2).blk t).view.emb j)
  funext j
  obtain ⟨z, o, l, rfl⟩ : ∃ (z : Fin 1) (o : Fin 64) (l : Fin 128), j = ix3 z o l := ⟨j 0, j 1, j 2, eq_ix3 j⟩
  obtain rfl : z = 0 := Fin.ext (by have := z.isLt; omega)
  refine (Body.pay_apply (threshBlk m c t) (patchBlk m c t) o l).trans ?_
  obtain ⟨e0, e1, e2, e3, e4, e5, e6, e7⟩ := idx_facts t
  refine congrArg (Diode.alpha * ·) (Finset.sum_congr rfl fun k _ => ?_)
  refine congrArg₂ Diode.cell ?_ ?_
  · show V m c main_v20 (((cfg0.win 1).blk t).view.emb (ix3 (0 : Fin 1) k l)) = V m c main_v20 _
    refine congrArg _ (funext fun a => Fin.ext ?_)
    match a with
    | ⟨0, _⟩ => show win0_1.index t (0 : Fin 3) * 1 + 1 * 0 = win0_2.index t (0 : Fin 3) * 1 + 1 * 0; omega
    | ⟨1, _⟩ => show win0_1.index t (1 : Fin 3) * 144 + 1 * k.val = k.val; omega
    | ⟨2, _⟩ => show win0_1.index t (2 : Fin 3) * 128 + 1 * l.val = win0_2.index t (2 : Fin 3) * 128 + 1 * l.val; omega
  · show V m c main_arg1 (((cfg0.win 0).blk t).view.emb (ix2 o k)) = V m c main_arg1 _
    refine congrArg _ (funext fun a => Fin.ext ?_)
    match a with
    | ⟨0, _⟩ => show win0_0.index t (0 : Fin 2) * 64 + 1 * o.val = win0_2.index t (1 : Fin 3) * 64 + 1 * o.val; omega
    | ⟨1, _⟩ => show win0_0.index t (1 : Fin 2) * 144 + 1 * k.val = k.val; omega

/-! ## The blocks tile the array -/

/-- An index of the current array is in point `t`'s block iff each coordinate is in the block's range on its axis. -/
theorem mem_blk (t : Fin cfg0.N) (i : S8x64x1024.Idx) :
    i ∈ ((cfg0.win 2).blk t).view.set ↔ ∀ a : Fin 3, win0_2.index t a * S1x64x128.size a ≤ (i a).val ∧ (i a).val < win0_2.index t a * S1x64x128.size a + S1x64x128.size a := by
  show i ∈ ((View.whole main_v21).slice (win0_2.rect t)).set ↔ _
  rw [View.set_slice_whole, Rect.mem_set_unit]
  exact Iff.rfl

/-- Every index (b, o, l) is in the block of the point at image b and column block l / 128. -/
theorem cover (i : S8x64x1024.Idx) : ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 1024 := (i 2).isLt
  obtain ⟨t, ht⟩ := idx_onto ⟨(i 0).val, hi0⟩ ⟨(i 2).val / 128, by omega⟩
  have q0 : win0_2.index t (0 : Fin 3) = (i 0).val := congrFun ht 0
  have q1 : win0_2.index t (1 : Fin 3) = 0 := congrFun ht 1
  have q2 : win0_2.index t (2 : Fin 3) = (i 2).val / 128 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 128 ≤ (i 2).val ∧ (i 2).val < win0_2.index t (2 : Fin 3) * 128 + 128; omega

/-- After the region its output array is the current array of the patch matrix and the thresholds. -/
theorem final (c : Dev nD) : (dats m 0 c).arrAt 2 cfg0.N = Diode.current (patchArr m c) (threshArr m c) :=
  (dats m 0 c).arrAt_eq_of_cover 2 (Diode.current (patchArr m c) (threshArr m c)) (fun t _ => flushed_eq m c t) cover

/-! ## The result -/

/-- @main's result after the run: the closing reshape of the region's output array, which is the current array of the
    image's patch matrix and the threshold argument. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v22)
      = shapeCast S8x64x32x32 (Diode.current (patchesOf (F := Ideal) (m ((c : Thread nD τ).loc main_arg0))) (m ((c : Thread nD τ).loc main_arg1)))
          shapeCasts_S8x64x1024_S8x64x32x32 := by
  refine ((h c).2 main_v22 (Pipeline.mem_restRefs_of main_v22 (by decide) (by decide))).trans ?_
  unfold Pipeline.afterTail₀
  show StableHlo.after hostOps1 _ (Proc.devRef .tc main_v22) = _
  after_results
  rw [Pipeline.withArrays_arr spec0 launch0.win.arr_inj c _ _ 2, final]
  show shapeCast _ (Diode.current (V m c main_v20) (V m c main_arg1)) _ = _
  rw [V_patches m c, V_main_arg1 m c]
  rfl

/-- The run of the idealized kernel's program with its result named: the reshape of the current array; both arguments
    unchanged. -/
theorem run : θ_run defs (onTc (τ := τ) (main (F := Ideal))) ⟨m, fun _ => 0, ρ⟩ fun r => ∀ c : Dev nD,
      r.2.mem ((c : Thread nD τ).loc main_v22)
        = shapeCast S8x64x32x32 (Diode.current (patchesOf (F := Ideal) (m ((c : Thread nD τ).loc main_arg0))) (m ((c : Thread nD τ).loc main_arg1)))
            shapeCasts_S8x64x1024_S8x64x32x32
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨result_eq m r h c, kept_main_arg0 m r h c, kept_main_arg1 m r h c⟩) (run_main m ρ)

end Cert.KernelIdeal.Current

end
-- ==== Proof.ReferenceCurrent.lean ====
/-
  The reference's result as the same function of its two arguments.

  The reference lays the patch matrix [8, 144, 1024] along a new unit axis of extent 64 and the thresholds [64, 144] along
  the image and pixel axes, forms α · cell at every (b, o, k, l), and sums over k from zero. Read at (b, o, l) through the
  stage-by-stage index lemmas this is Σ_k α · cell (patch (b, k, l)) (threshold (o, k)), and the non-negative real α comes out of the
  sum: the entry of `Diode.current`. The result is that array reshaped to [8, 64, 32, 32].
-/
import proofs.«104473_j27144193310998_1_alg».proof.Proof.Gen.ReferenceIdeal.Read
import proofs.«104473_j27144193310998_1_alg».proof.Proof.LibDiodeCurrent
import Idealize.ShloMosaic.Lib.ValueIdx
import Idealize.ShloMosaic.PureOps.Ideal.Laws

noncomputable section

namespace Cert.ReferenceIdeal.Current

open Cert.ReferenceIdeal Cert.ReferenceIdeal.Gen Cert.ReferenceIdeal.Read
open Idealize.ShloMosaic Idealize.ShloMosaic.TcCoe Idealize.SL.Sem Idealize.ShloMosaic.ValueIdx

/-- The reference's sum over the patch rows is the current array of its own patch matrix stage and the thresholds. -/
theorem sum_eq (x0 : (⟨S8x16x32x32, .f32⟩ : BufTy).Contents (Elt Ideal)) (x1 : (⟨S64x144, .f32⟩ : BufTy).Contents (Elt Ideal)) :
    val_main_v41 (F := Ideal) x0 x1 = Diode.current (val_main_v20 (F := Ideal) x0) x1 := by
  funext i
  rw [val_main_v41_apply]
  show Ideal.ofBits .f32 0x00000000#32 + _ = _
  rw [Ideal.ofBits_zero_f32, zero_add]
  unfold Diode.current Diode.currentAt
  rw [Diode.scale_sum]
  refine Finset.sum_congr rfl fun k _ => ?_
  show Diode.alpha * Diode.cell (val_main_v23 (F := Ideal) x0 (idx_main_v41 i k)) (val_main_v24 (F := Ideal) x1 (idx_main_v41 i k))
    = Diode.alpha * Diode.cell (val_main_v20 (F := Ideal) x0 _) (x1 _)
  refine congrArg (Diode.alpha * ·) (congrArg₂ Diode.cell ?_ ?_)
  · rw [val_main_v23_apply, val_main_v21_apply]
    exact congrArg _ (funext fun a => Fin.ext (by match a with | ⟨0, _⟩ => rfl | ⟨1, _⟩ => rfl | ⟨2, _⟩ => rfl))
  · rw [val_main_v24_apply, val_main_v22_apply]
    exact congrArg _ (funext fun a => Fin.ext (by match a with | ⟨0, _⟩ => rfl | ⟨1, _⟩ => rfl))

/-- The reference run's result term: the reshape of the current array of the image's patch matrix and the thresholds. -/
theorem result_eq (m : (ℓ : Loc nD τ sig) → Buf (Elt Ideal) ℓ) (c : Dev nD) :
    Cert.ReferenceIdeal.Value.res_main_v42 m c
      = shapeCast S8x64x32x32 (Diode.current (val_main_v20 (F := Ideal) (m ((c.tc : Thread nD τ).loc main_arg0))) (m ((c.tc : Thread nD τ).loc main_arg1)))
          shapeCasts_S8x64x1024_S8x64x32x32 := by
  rw [val_main_v42_eq]
  unfold val_main_v42
  rw [sum_eq]

end Cert.ReferenceIdeal.Current

end
-- ==== Proof.lean ====
/-
  A convolution of diode currents: for an image x [8, 16, 32, 32] and thresholds θ [64, 144], every output pixel of every
  unit o sums, over the 144 entries k of the pixel's 3 × 3 × 16 patch, the current of one cell,
  sp((p - θ)·c₁)² - sp((p - θ)·c₁ - c₂)² with sp(v) = log(1 + e^clip(v)), and scales by α.

  Both programs build the patch matrix [8, 144, 1024] by the same host lines (zero border, nine shifted windows stacked and
  flattened). The kernel then runs one pipelined region over (image, block of 128 pixels) that holds all thresholds and one
  [144, 128] block of patches, sums the cells over k inside the block and multiplies the sum by α; the reference forms
  α · cell over the whole [8, 64, 144, 1024] array and sums over k. So at the ideal instance the kernel's entry is
  α · Σ_k cell and the reference's Σ_k α · cell: equal because α is a non-negative real, which distributes over a finite sum
  of extended reals whatever the terms are. Nothing else differs: the clip is min(30, max(-30, ·)) on both sides, the
  exponential and the logarithm are one function each, and every constant is the same binary32 word on both sides.

  The three frames: each kernel program runs its host lines, the region (every grid point's body loads its two input
  blocks, stores the output block whole, and touches nothing else) and the closing reshape, and leaves both arguments as
  launched; the reference is host lines only. The ideal pass rewrote nothing, so the idealization claim is empty.
-/
import proofs.«104473_j27144193310998_1_alg».proof.Defs
import proofs.«104473_j27144193310998_1_alg».proof.Proof.Gen.Kernel
import proofs.«104473_j27144193310998_1_alg».proof.Proof.Gen.KernelIdeal
import proofs.«104473_j27144193310998_1_alg».proof.Proof.Gen.ReferenceIdeal
import proofs.«104473_j27144193310998_1_alg».proof.Proof.Gen.Pre_finite_inputs
import proofs.«104473_j27144193310998_1_alg».proof.Proof.Gen.ReferenceIdeal.Run
import proofs.«104473_j27144193310998_1_alg».proof.Proof.Gen.ReferenceIdeal.Read
import proofs.«104473_j27144193310998_1_alg».proof.Proof.RegionBits
import proofs.«104473_j27144193310998_1_alg».proof.Proof.RegionIdeal
import proofs.«104473_j27144193310998_1_alg».proof.Proof.CurrentArray
import proofs.«104473_j27144193310998_1_alg».proof.Proof.ReferenceCurrent
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- The reference is host lines only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs build the patch matrix by the same operations of the image: the reference's stage and the kernel
    program's host prefix are one term. -/
theorem patches_eq (x : FVec Ideal Cert.KernelIdeal.S8x16x32x32 .f32) :
    Cert.ReferenceIdeal.Read.val_main_v20 (F := Ideal) x = Cert.KernelIdeal.Current.patchesOf (F := Ideal) x := rfl

/-- From memories agreeing on the arguments both idealized programs run and end with the same result: the reshape of the
    current array of the image's patch matrix and the thresholds. -/
theorem algebraic : Cert.algebraic_KernelIdeal_ReferenceIdeal := by
  intro m ρ m' ρ' _ hagree
  refine ⟨_, Cert.KernelIdeal.Current.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Current.result_eq, (hagree c).1, (hagree c).2, patches_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
